-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S5000x128 : Shape := ⟨2, ![5000, 128]⟩

abbrev nBuf : Space → Nat
  | .hbm => 4
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S5000x128_S5000x128_0_0 : ∀ a, (![0, 0] : Fin 2 → Nat) a + S5000x128.size a ≤ S5000x128.size a
  h_S5000x128 : 0 < S5000x128.numel
  dot_S128x128_S128x128_S128x128_1_0_0_1_n_n_wf : DotDims.WF S128x128 S128x128 S128x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | .hbm, ⟨4, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the graph-convolution product, with no program in sight.

  Both programs compute, for a row `r` of `x` and an output column `q`, a double sum of the products
  `x r k * W k j * A j q` over the two inner axes `k` and `j`: one side groups it as `x r k * (∑ j, W k j * A j q)`
  summed over `k` (the small matrices are multiplied first), the other as `(∑ k, x r k * W k j) * A j q` summed over `j`
  (the rows are multiplied through one matrix after the other). On the extended reals a factor moves into a sum
  only when nothing is infinite, so the law is stated for entries that are real numbers.
-/
import Idealize.ShloMosaic.PureOps.Ideal
import Idealize.ShloMosaic.Lib.ValueIdx
import Mathlib.Data.EReal.Basic
import Mathlib.Algebra.BigOperators.Ring.Finset

noncomputable section

namespace Cert.GConv

open Idealize.ShloMosaic Idealize.ShloMosaic.ValueIdx

/-- A finite sum of real numbers, read in the extended reals, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product of matrices at one entry, over the reals read as extended reals:
    `∑ k, x k * (∑ j, w k j * a j) = ∑ j, (∑ k, x k * w k j) * a j`. -/
theorem assoc_real {K J : Type*} [Fintype K] [Fintype J] (x : K → ℝ) (w : K → J → ℝ) (a : J → ℝ) :
    (∑ k, (x k : EReal) * ∑ j, (w k j : EReal) * (a j : EReal))
      = ∑ j, (∑ k, (x k : EReal) * (w k j : EReal)) * (a j : EReal) := by
  have hl : (∑ k, (x k : EReal) * ∑ j, (w k j : EReal) * (a j : EReal)) = ((∑ k, x k * ∑ j, w k j * a j : ℝ) : EReal) := by
    rw [coe_sum]
    refine Finset.sum_congr rfl fun k _ => ?_
    rw [EReal.coe_mul, coe_sum]
    simp only [EReal.coe_mul]
  have hr : (∑ j, (∑ k, (x k : EReal) * (w k j : EReal)) * (a j : EReal)) = ((∑ j, (∑ k, x k * w k j) * a j : ℝ) : EReal) := by
    rw [coe_sum]
    refine Finset.sum_congr rfl fun j _ => ?_
    rw [EReal.coe_mul, coe_sum]
    simp only [EReal.coe_mul]
  rw [hl, hr]
  congr 1
  simp only [Finset.mul_sum, Finset.sum_mul]
  rw [Finset.sum_comm]
  refine Finset.sum_congr rfl fun j _ => Finset.sum_congr rfl fun k _ => ?_
  ring

/-- The same law for extended-real entries each of which is a real number. -/
theorem assoc_of_finite {K J : Type*} [Fintype K] [Fintype J] (x : K → EReal) (w : K → J → EReal) (a : J → EReal)
    (hx : ∀ k, ∃ r : ℝ, x k = r) (hw : ∀ k j, ∃ r : ℝ, w k j = r) (ha : ∀ j, ∃ r : ℝ, a j = r) :
    (∑ k, x k * ∑ j, w k j * a j) = ∑ j, (∑ k, x k * w k j) * a j := by
  choose x' hx' using hx
  choose w' hw' using hw
  choose a' ha' using ha
  simp only [hx', hw', ha']
  exact assoc_real x' w' a'

/-- One entry of the result: row `r` of `x` against column `q` of the product of the two small matrices,
    the small matrices multiplied first. -/
def entry (x : (⟨2, ![100000, 128]⟩ : Shape).Idx → EReal) (W A : (⟨2, ![128, 128]⟩ : Shape).Idx → EReal)
    (r : Fin 100000) (q : Fin 128) : EReal :=
  ∑ k : Fin 128, x (ix2 r k) * ∑ j : Fin 128, W (ix2 k j) * A (ix2 j q)

/-- The same entry with the row multiplied through `W` first and through `A` second. -/
def entrySeq (x : (⟨2, ![100000, 128]⟩ : Shape).Idx → EReal) (W A : (⟨2, ![128, 128]⟩ : Shape).Idx → EReal)
    (r : Fin 100000) (q : Fin 128) : EReal :=
  ∑ j : Fin 128, (∑ k : Fin 128, x (ix2 r k) * W (ix2 k j)) * A (ix2 j q)

/-- The whole result array, small matrices first. -/
def out (x : (⟨2, ![100000, 128]⟩ : Shape).Idx → EReal) (W A : (⟨2, ![128, 128]⟩ : Shape).Idx → EReal) :
    (⟨2, ![100000, 128]⟩ : Shape).Idx → EReal :=
  fun i => entry x W A (i 0) (i 1)

/-- The whole result array, one matrix after the other. -/
def outSeq (x : (⟨2, ![100000, 128]⟩ : Shape).Idx → EReal) (W A : (⟨2, ![128, 128]⟩ : Shape).Idx → EReal) :
    (⟨2, ![100000, 128]⟩ : Shape).Idx → EReal :=
  fun i => entrySeq x W A (i 0) (i 1)

theorem out_ix2 (x : (⟨2, ![100000, 128]⟩ : Shape).Idx → EReal) (W A : (⟨2, ![128, 128]⟩ : Shape).Idx → EReal)
    (r : Fin 100000) (q : Fin 128) : out x W A (ix2 r q) = entry x W A r q := rfl

theorem outSeq_ix2 (x : (⟨2, ![100000, 128]⟩ : Shape).Idx → EReal) (W A : (⟨2, ![128, 128]⟩ : Shape).Idx → EReal)
    (r : Fin 100000) (q : Fin 128) : outSeq x W A (ix2 r q) = entrySeq x W A r q := rfl

/-- When every entry of the three arrays is a real number the two groupings agree. -/
theorem out_eq_outSeq (x : (⟨2, ![100000, 128]⟩ : Shape).Idx → EReal) (W A : (⟨2, ![128, 128]⟩ : Shape).Idx → EReal)
    (hx : ∀ i, ∃ r : ℝ, x i = r) (hW : ∀ i, ∃ r : ℝ, W i = r) (hA : ∀ i, ∃ r : ℝ, A i = r) :
    out x W A = outSeq x W A := by
  funext i
  exact assoc_of_finite (fun k => x (ix2 (i 0) k)) (fun k j => W (ix2 k j)) (fun j => A (ix2 j (i 1)))
    (fun k => hx _) (fun k j => hW _) (fun j => hA _)

end Cert.GConv

end
-- ==== Proof.RefValue.lean ====
/-
  The reference read entry by entry: its two `dot_general`s, one after the other, are the grouping of the double sum
  in which the rows of `x` go through `W` first and through `A` second (`GConv.outSeq`).
-/
import proofs.«148851_g27676769255847_cont_9to1_279_5_alg».proof.Proof.Gen.ReferenceIdeal.Read
import proofs.«148851_g27676769255847_cont_9to1_279_5_alg».proof.Proof.Spec

noncomputable section

namespace Cert.GConv.Ref

open Cert.ReferenceIdeal Cert.ReferenceIdeal.Gen Cert.ReferenceIdeal.Read Idealize.ShloMosaic Idealize.ShloMosaic.ValueIdx

/-- The outer product's left operand is read at row `r`, inner index `j`. -/
theorem lidx1_eq (r : Fin 100000) (q j : Fin 128) : lidx_main_v1 (ix2 r q) j = ix2 r j :=
  funext fun a => Fin.ext (by match a with | ⟨0, _⟩ => rfl | ⟨1, _⟩ => rfl)

/-- The outer product's right operand is read at inner index `j`, column `q`. -/
theorem ridx1_eq (r : Fin 100000) (q j : Fin 128) : ridx_main_v1 (ix2 r q) j = ix2 j q :=
  funext fun a => Fin.ext (by match a with | ⟨0, _⟩ => rfl | ⟨1, _⟩ => rfl)

/-- The inner product at entry `(r, j)` reads `x` at row `r`, index `k`. -/
theorem lidx0_eq (r : Fin 100000) (j k : Fin 128) : lidx_main_v0 (ix2 r j) k = ix2 r k :=
  funext fun a => Fin.ext (by match a with | ⟨0, _⟩ => rfl | ⟨1, _⟩ => rfl)

/-- The inner product at entry `(r, j)` reads `W` at index `k`, column `j`. -/
theorem ridx0_eq (r : Fin 100000) (j k : Fin 128) : ridx_main_v0 (ix2 r j) k = ix2 k j :=
  funext fun a => Fin.ext (by match a with | ⟨0, _⟩ => rfl | ⟨1, _⟩ => rfl)

/-- The reference's result is the double sum with the rows taken through `W` first. -/
theorem ref_eq (x : (⟨S100000x128, .f32⟩ : BufTy).Contents (Elt Ideal)) (W A : (⟨S128x128, .f32⟩ : BufTy).Contents (Elt Ideal)) :
    val_main_v1 (F := Ideal) x W A = GConv.outSeq x W A := by
  funext i
  obtain ⟨r, q, rfl⟩ : ∃ (r : Fin 100000) (q : Fin 128), i = ix2 r q := ⟨i 0, i 1, eq_ix2 i⟩
  rw [val_main_v1_apply, GConv.outSeq_ix2]
  unfold GConv.entrySeq
  refine Finset.sum_congr rfl fun j _ => ?_
  rw [lidx1_eq, ridx1_eq, val_main_v0_apply]
  congr 1
  refine Finset.sum_congr rfl fun k _ => ?_
  rw [lidx0_eq, ridx0_eq]

end Cert.GConv.Ref

end
-- ==== Proof.Pieces.lean ====
/-
  What one run of the body leaves behind, case by case: at the first grid point the scratch is filled with the
  product of the two small matrices and the output block with the row block times that product; at every later
  point the scratch is left alone and the output block is the row block times what the scratch carried in.
-/
import proofs.«148851_g27676769255847_cont_9to1_279_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- At the first point the carried scratch ends holding the product of the two small matrices (rounded to the
    scratch's format): the one store that covers it, its loads the two whole staging buffers. -/
theorem scratch_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S5000x128 .f32) (harg4 : arg4.IsWhole) (arg5 : Memref sig .tc .vmem S128x128 .bf16) (harg5 : arg5.IsWhole) (hc0 : cond0_0 i)
    (x0 : Vec F S5000x128 .f32) (x1 : Vec F S128x128 .f32) (x2 : Vec F S128x128 .f32) :
    sout0_A_0 c i arg1 harg1 arg2 harg2 arg3 harg3 arg4 harg4 arg5 harg5 hc0 x0 x1 x2 = k0_pay1 x1 x2 := by
  unfold sout0_A_0
  rw [View.read_writes_eq_canon _ _ _ (scover0_A_0 c i arg1 harg1 arg2 harg2 arg3 harg3 arg4 harg4 arg5 harg5 hc0 x0 x1 x2)]
  unfold kernelRun0_A
  dsimp only
  sl_unfold_words
  rw [View.canon_unit_zero hz]
  simp only [View.readAt_eq_ld, harg2.read_unread, harg3.read_unread, View.ld_unit_zero (S := S128x128) hz]

/-- At the first point the output block ends holding the row block times that product: the scratch is read back
    after the store that filled it. -/
theorem out_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S5000x128 .f32) (harg4 : arg4.IsWhole) (arg5 : Memref sig .tc .vmem S128x128 .bf16) (harg5 : arg5.IsWhole) (hc0 : cond0_0 i)
    (x0 : Vec F S5000x128 .f32) (x1 : Vec F S128x128 .f32) (x2 : Vec F S128x128 .f32) :
    out0_A_3 c i arg1 harg1 arg2 harg2 arg3 harg3 arg4 harg4 arg5 harg5 hc0 x0 x1 x2 = k0_pay2 x0 (k0_pay1 x1 x2) := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz]
  simp only [View.readAt_eq_ld, harg1.read_unread, harg2.read_unread, harg3.read_unread,
    View.ld_unit_zero (S := S5000x128) hz, View.ld_unit_zero (S := S128x128) hz, View.readCov_unit_zero (S := S128x128) _ hz]

/-- At every later point the output block ends holding the row block times whatever the scratch carried in. -/
theorem out_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S5000x128 .f32) (harg4 : arg4.IsWhole) (arg5 : Memref sig .tc .vmem S128x128 .bf16) (harg5 : arg5.IsWhole) (hc0 : ¬cond0_0 i)
    (x0 : Vec F S5000x128 .f32) (x1 : Vec F S128x128 .f32) (x2 : Vec F S128x128 .f32) (xs0 : Vec F S128x128 .bf16) :
    out0_B_3 c i arg1 harg1 arg2 harg2 arg3 harg3 arg4 harg4 arg5 harg5 hc0 x0 x1 x2 xs0 = k0_pay2 x0 xs0 := by
  unfold out0_B_3
  rw [View.read_writes_eq_canon _ _ _ (cover0_B_3 c i arg1 harg1 arg2 harg2 arg3 harg3 arg4 harg4 arg5 harg5 hc0 x0 x1 x2 xs0)]
  unfold kernelRun0_B
  dsimp only
  rw [View.canon_unit_zero hz]
  simp only [View.readAt_eq_ld, harg1.read_unread, harg5.read_unread,
    View.ld_unit_zero (S := S5000x128) hz, View.ld_unit_zero (S := S128x128) hz]

end Cert.KernelIdeal.KValue
end
-- ==== Proof.Matmul.lean ====
/-
  The body's two matrix products read at an entry, on the extended reals: into a zero accumulator each is the plain
  sum over the one contracted axis of the operands' products, and the changes of float format around them are the
  identity.
-/
import proofs.«148851_g27676769255847_cont_9to1_279_5_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-! The operand indices of the product of the two small matrices, axis by axis. -/

theorem small_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem small_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem small_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem small_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-! The operand indices of the product of a row block with the combined matrix, axis by axis. -/

theorem rows_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rows_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rows_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rows_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(k, q)` of the combined matrix: row `k` of `W` against column `q` of `A`. -/
theorem pay1_apply (w a : Vec Ideal S128x128 .f32) (k q : Fin 128) :
    k0_pay1 (F := Ideal) w a (ix2 k q) = ∑ j : Fin 128, w (ix2 k j) * a (ix2 j q) := by
  unfold k0_pay1
  rw [shapeCast_self]
  show FloatOps.matmul (F := Ideal) (φ₁ := .f32) (φ₂ := .f32) dot_S128x128_S128x128_S128x128_1_0_0_1_n_n none w a (constant S128x128 .f32 0x00000000#32) (ix2 k q) = _
  rw [Ideal.matmul_constant_zero_apply, ← Equiv.sum_comp (contrEquiv1 dot_S128x128_S128x128_S128x128_1_0_0_1_n_n 128 rfl rfl).symm]
  refine Finset.sum_congr rfl fun j _ => ?_
  have hj := contrEquiv1_symm_val dot_S128x128_S128x128_S128x128_1_0_0_1_n_n 128 rfl rfl j
  have el : dot_S128x128_S128x128_S128x128_1_0_0_1_n_n.lhsIdx (ix2 k q) ((contrEquiv1 dot_S128x128_S128x128_S128x128_1_0_0_1_n_n 128 rfl rfl).symm j) = ix2 k j := funext fun b => Fin.ext (by
    match b with
    | ⟨0, _⟩ => exact small_lhs_0 _ _
    | ⟨1, _⟩ => exact (small_lhs_1 _ _).trans hj)
  have er : dot_S128x128_S128x128_S128x128_1_0_0_1_n_n.rhsIdx (ix2 k q) ((contrEquiv1 dot_S128x128_S128x128_S128x128_1_0_0_1_n_n 128 rfl rfl).symm j) = ix2 j q := funext fun b => Fin.ext (by
    match b with
    | ⟨0, _⟩ => exact (small_rhs_0 _ _).trans hj
    | ⟨1, _⟩ => exact small_rhs_1 _ _)
  rw [el, er]

/-- Entry `(p, q)` of a row block's product: row `p` of the block against column `q` of the matrix the scratch holds. -/
theorem pay2_apply (x : Vec Ideal S5000x128 .f32) (cm : Vec Ideal S128x128 .bf16) (p : Fin 5000) (q : Fin 128) :
    k0_pay2 (F := Ideal) x cm (ix2 p q) = ∑ k : Fin 128, x (ix2 p k) * cm (ix2 k q) := by
  unfold k0_pay2
  show FloatOps.matmul (F := Ideal) (φ₁ := .bf16) (φ₂ := .bf16) dot_S5000x128_S128x128_S5000x128_1_0_0_1_n_n none (truncf (F := Ideal) (φ := .f32) .bf16 x bitsLt_bf16_f32) cm (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun b => Fin.ext (by
    match b with
    | ⟨0, _⟩ => exact rows_lhs_0 _ _
    | ⟨1, _⟩ => exact (rows_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun b => Fin.ext (by
    match b with
    | ⟨0, _⟩ => exact (rows_rhs_0 _ _).trans hk
    | ⟨1, _⟩ => exact rows_rhs_1 _ _)
  rw [el, er]
  rfl

end Cert.KernelIdeal.KValue

end
-- ==== Proof.KValue.lean ====
/-
  From one run of the body to the whole result array.

  The grid has 20 points; point `t` stages rows `5000 t … 5000 t + 4999` of `x` and of the result, and the two small
  matrices whole. The scratch is filled at point 0 with the product of the small matrices and never written again, so
  after every point it holds that product (an induction on the point); each point's output block is therefore the row
  block times that product. The 20 output blocks tile the result array, which so ends holding, entry by entry, the
  double sum `GConv.out` of the argument arrays.
-/
import proofs.«148851_g27676769255847_cont_9to1_279_5_alg».proof.Proof.Pieces
import proofs.«148851_g27676769255847_cont_9to1_279_5_alg».proof.Proof.Matmul
import proofs.«148851_g27676769255847_cont_9to1_279_5_alg».proof.Proof.Spec
import proofs.«148851_g27676769255847_cont_9to1_279_5_alg».proof.Proof.Gen.KernelIdeal.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The row block of `x` staged at point `t`. -/
abbrev xblk (c : Dev nD) (t : Fin cfg0.N) : Vec Ideal S5000x128 .f32 := iblk m c 0 t
/-- The block of `W` staged at point `t` (always the whole matrix). -/
abbrev wblk (c : Dev nD) (t : Fin cfg0.N) : Vec Ideal S128x128 .f32 := iblk m c 1 t
/-- The block of `A` staged at point `t` (always the whole matrix). -/
abbrev ablk (c : Dev nD) (t : Fin cfg0.N) : Vec Ideal S128x128 .f32 := iblk m c 2 t
/-- The three argument arrays as the region finds them. -/
abbrev xarr (c : Dev nD) : Vec Ideal S100000x128 .f32 := V m c main_arg0
abbrev warr (c : Dev nD) : Vec Ideal S128x128 .f32 := V m c main_arg1
abbrev aarr (c : Dev nD) : Vec Ideal S128x128 .f32 := V m c main_arg2

/-- The product of the two small matrices, as the scratch holds it. -/
abbrev comb (c : Dev nD) : Vec Ideal S128x128 .bf16 := k0_pay1 (F := Ideal) (warr m c) (aarr m c)

/-- The printed index maps over the grid: `x` and the result move one block of rows per point, the small matrices
    stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_lt (t : Fin cfg0.N) : t.val < 20 := lt_of_lt_of_eq t.isLt (show cfg0.N = 20 from N_0)

/-- The staged block of `W` is `W`. -/
theorem wblk_eq (c : Dev nD) (t : Fin cfg0.N) : wblk m c t = warr m c := by
  funext y
  unfold wblk iblk
  rw [View.read_apply]
  show V m c main_arg1 _ = V m c main_arg1 y
  congr 1
  funext b; apply Fin.ext
  obtain ⟨-, -, e2, e3, -⟩ := idx_facts t
  match b with
  | ⟨0, _⟩ => show win0_1.index t (0 : Fin 2) * 128 + 1 * (y 0).val = (y 0).val; omega
  | ⟨1, _⟩ => show win0_1.index t (1 : Fin 2) * 128 + 1 * (y 1).val = (y 1).val; omega

/-- The staged block of `A` is `A`. -/
theorem ablk_eq (c : Dev nD) (t : Fin cfg0.N) : ablk m c t = aarr m c := by
  funext y
  unfold ablk iblk
  rw [View.read_apply]
  show V m c main_arg2 _ = V m c main_arg2 y
  congr 1
  funext b; apply Fin.ext
  obtain ⟨-, -, -, -, e4, e5, -⟩ := idx_facts t
  match b with
  | ⟨0, _⟩ => show win0_2.index t (0 : Fin 2) * 128 + 1 * (y 0).val = (y 0).val; omega
  | ⟨1, _⟩ => show win0_2.index t (1 : Fin 2) * 128 + 1 * (y 1).val = (y 1).val; omega

/-- Row `p` of the block staged at point `t` is row `5000 t + p` of `x`. -/
theorem xblk_apply (c : Dev nD) (t : Fin cfg0.N) (p : Fin 5000) (k : Fin 128) :
    xblk m c t (ix2 p k) = xarr m c (ix2 ⟨5000 * t.val + p.val, by have := N_lt t; have := p.isLt; omega⟩ k) := by
  unfold xblk iblk
  rw [View.read_apply]
  show V m c main_arg0 _ = V m c main_arg0 _
  congr 1
  funext b; apply Fin.ext
  obtain ⟨e0, e1, -⟩ := idx_facts t
  match b with
  | ⟨0, _⟩ => show win0_0.index t (0 : Fin 2) * 5000 + 1 * p.val = 5000 * t.val + p.val; omega
  | ⟨1, _⟩ => show win0_0.index t (1 : Fin 2) * 128 + 1 * k.val = k.val; omega

/-- THE SCRATCH NEVER CHANGES after point 0: after every point it holds the product of the two small matrices. -/
theorem scratch_eq (c : Dev nD) : ∀ (n : ℕ) (h : n < cfg0.N), (outsAt0 m c n h).2 = comb m c
  | 0, h => by
    rw [outsAt0_A m c ⟨0, h⟩ rfl]
    dsimp only
    exact (scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr rfl) (xblk m c ⟨0, h⟩) (wblk m c ⟨0, h⟩) (ablk m c ⟨0, h⟩)).trans
      (congrArg₂ (k0_pay1 (F := Ideal)) (wblk_eq m c ⟨0, h⟩) (ablk_eq m c ⟨0, h⟩))
  | n + 1, h => by
    have hN : n + 1 < 20 := N_lt ⟨n + 1, h⟩
    have hB : ¬(⟨n + 1, h⟩ : Fin cfg0.N).val % 20 = 0 := by dsimp only; omega
    rw [outsAt0_B m c ⟨n + 1, h⟩ hB]
    dsimp only
    unfold sout0_B_0
    exact scratch_eq c n _

/-- So every point's output block is its row block times that product. -/
theorem out_eq (c : Dev nD) (t : Fin cfg0.N) :
    (outsAt0 m c t.val t.isLt).1 = k0_pay2 (F := Ideal) (xblk m c t) (comb m c) := by
  by_cases h0 : t.val % 20 = 0
  · rw [outsAt0_A m c t h0]
    dsimp only
    exact (out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (xblk m c t) (wblk m c t) (ablk m c t)).trans
      (congrArg (k0_pay2 (F := Ideal) (xblk m c t)) (congrArg₂ (k0_pay1 (F := Ideal)) (wblk_eq m c t) (ablk_eq m c t)))
  · rw [outsAt0_B m c t h0]
    dsimp only
    exact (out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xblk m c t) (wblk m c t) (ablk m c t) (outsAt0 m c (t.val - 1) (Nat.lt_of_le_of_lt (Nat.sub_le _ _) t.isLt)).2).trans
      (congrArg (k0_pay2 (F := Ideal) (xblk m c t)) (scratch_eq m c _ _))

/-- The whole result, entry by entry, of the arrays the region finds. -/
abbrev result (c : Dev nD) : Vec Ideal S100000x128 .f32 := GConv.out (xarr m c) (warr m c) (aarr m c)

/-- WHAT POINT `t` WRITES BACK is block `t` of the result: rows `5000 t …` of `x` against the product of the small
    matrices. -/
theorem flushed_eq (c : Dev nD) (t : Fin cfg0.N) :
    (dats m 0 c).flushed 3 t = ((cfg0.win 3).blk t).view.read (Elt Ideal) (result m c) := by
  rw [Cert.KernelIdeal.Value.flushed3, out_eq]
  funext y
  obtain ⟨p, q, rfl⟩ : ∃ (p : Fin 5000) (q : Fin 128), y = ix2 p q := ⟨y 0, y 1, eq_ix2 y⟩
  rw [View.read_apply]
  have hb : 5000 * t.val + p.val < 100000 := by have := N_lt t; have := p.isLt; omega
  have hemb : ((cfg0.win 3).blk t).view.emb (ix2 p q) = ix2 (⟨5000 * t.val + p.val, hb⟩ : Fin 100000) q := by
    funext b; apply Fin.ext
    obtain ⟨-, -, -, -, -, -, e6, e7⟩ := idx_facts t
    match b with
    | ⟨0, _⟩ => show win0_3.index t (0 : Fin 2) * 5000 + 1 * p.val = 5000 * t.val + p.val; omega
    | ⟨1, _⟩ => show win0_3.index t (1 : Fin 2) * 128 + 1 * q.val = q.val; omega
  rw [hemb]
  show k0_pay2 (F := Ideal) (xblk m c t) (comb m c) (ix2 p q) = GConv.out (xarr m c) (warr m c) (aarr m c) (ix2 (⟨5000 * t.val + p.val, hb⟩ : Fin 100000) q)
  rw [pay2_apply, GConv.out_ix2]
  unfold GConv.entry
  refine Finset.sum_congr rfl fun k _ => ?_
  rw [xblk_apply]
  exact congrArg (xarr m c (ix2 (⟨5000 * t.val + p.val, hb⟩ : Fin 100000) k) * ·) (pay1_apply (warr m c) (aarr m c) k q)

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The 20 blocks tile the array: row `r` lies in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  refine ⟨t, flush0_3 t, ?_⟩
  rw [mem_blk]
  obtain ⟨-, -, -, -, -, -, e6, e7⟩ := idx_facts t
  have ht : t.val = (i 0).val / 5000 := rfl
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is the result. -/
theorem final (c : Dev nD) : (dats m 0 c).arrAt 3 cfg0.N = result m c :=
  (dats m 0 c).arrAt_eq_of_cover 3 (result m c) (fun t _ => flushed_eq m c t) cover

/-- The kernel's run, read: the result array at the double sum of the launch contents, the arguments unchanged. -/
theorem run : θ_run defs (onTc (τ := τ) (main (F := Ideal))) ⟨m, fun _ => 0, ρ⟩ fun r => ∀ c : Dev nD,
      r.2.mem ((c : Thread nD τ).loc main_v0)
        = GConv.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KValue

end
-- ==== Proof.Finite.lean ====
/-
  From the precondition to real entries. The precondition is three `jnp.all(|·| < +∞)` joined by `and`; where it
  is all ones, every entry of each of the three arrays is strictly between the two infinities, hence a real number.
-/
import proofs.«148851_g27676769255847_cont_9to1_279_5_alg».proof.Pre_finite_inputs
import proofs.«148851_g27676769255847_cont_9to1_279_5_alg».proof.Proof.Gen.Pre_finite_inputs
import Idealize.ShloMosaic.PureOps.Ideal
import Idealize.ShloMosaic.Lib.ReduceAll
import Idealize.ShloMosaic.Lib.ValueIdx

noncomputable section

namespace Cert.GConv.Finite

open Idealize.ShloMosaic Cert.Pre_finite_inputs

/-- An extended real whose absolute value compares below `+∞` is a real number. -/
theorem real_of_abs_lt_inf (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = r := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  induction a using EReal.rec with
  | bot => exfalso; revert h; simp [Ideal.cmp]
  | coe r => exact ⟨r, rfl⟩
  | top => exfalso; revert h; simp [Ideal.cmp]

instance : Subsingleton S_.Idx := ⟨fun a b => funext fun d => d.elim0⟩

/-- Where the precondition holds, every entry of `x`, `W` and `A` is a real number. -/
theorem real_of_pre (x : FVec Ideal S100000x128 .f32) (W A : FVec Ideal S128x128 .f32)
    (h : fn (F := Ideal) x W A = fun _ => 1#1) :
    (∀ i, ∃ r : ℝ, x i = r) ∧ (∀ i, ∃ r : ℝ, W i = r) ∧ (∀ i, ∃ r : ℝ, A i = r) := by
  have h0 := congrFun h ValueIdx.ix0
  dsimp only [fn] at h0
  obtain ⟨h01, hA⟩ := IntOp.andi_eq_one.1 h0
  obtain ⟨hx, hW⟩ := IntOp.andi_eq_one.1 h01
  refine ⟨fun i => ?_, fun i => ?_, fun i => ?_⟩
  · exact real_of_abs_lt_inf (x i) (Host.reduce_andi_all _ _ _ _ _ hx i)
  · exact real_of_abs_lt_inf (W i) (Host.reduce_andi_all _ _ _ _ _ hW i)
  · exact real_of_abs_lt_inf (A i) (Host.reduce_andi_all _ _ _ _ _ hA i)

end Cert.GConv.Finite

end
-- ==== Proof.lean ====
/-
  The graph-convolution kernel against its reference: `x · (W · A)` against `(x · W) · A`.

  The kernel multiplies the two small matrices once, at the first grid point, keeps the product in a scratch buffer, and
  at each of its 20 points multiplies a block of 5000 rows of `x` by it; the reference multiplies all of `x` by `W`
  and the result by `A`. On the extended reals the changes of float format are the identity and a matrix product into
  a zero accumulator is the plain sum of products, so entry `(r, q)` is `∑ k, x r k * ∑ j, W k j * A j q` on the one
  side and `∑ j, (∑ k, x r k * W k j) * A j q` on the other: equal because every entry is a real number (the
  precondition), where a factor moves into a finite sum and the two sums swap.

  Spec      the two groupings of the double sum, and the law between them for real entries
  RefValue  the reference's two products are the second grouping
  Pieces    what one run of the body leaves in the scratch and in the output block, case by case
  Matmul    the body's two products at an entry
  KValue    the scratch holds `W · A` after every point; the 20 output blocks tile the result
  Finite    the precondition makes every entry real
  The three frames are the generated ones (the reference's is its run with the result dropped); the idealization
  rewrote nothing, so `preserves` is `True`.
-/
import proofs.«148851_g27676769255847_cont_9to1_279_5_alg».proof.Defs
import proofs.«148851_g27676769255847_cont_9to1_279_5_alg».proof.Proof.Gen.Kernel
import proofs.«148851_g27676769255847_cont_9to1_279_5_alg».proof.Proof.Gen.Kernel.Skeleton
import proofs.«148851_g27676769255847_cont_9to1_279_5_alg».proof.Proof.Gen.Kernel.Launch
import proofs.«148851_g27676769255847_cont_9to1_279_5_alg».proof.Proof.Gen.Kernel.Points
import proofs.«148851_g27676769255847_cont_9to1_279_5_alg».proof.Proof.Gen.Kernel.Frame
import proofs.«148851_g27676769255847_cont_9to1_279_5_alg».proof.Proof.Gen.KernelIdeal
import proofs.«148851_g27676769255847_cont_9to1_279_5_alg».proof.Proof.Gen.KernelIdeal.Skeleton
import proofs.«148851_g27676769255847_cont_9to1_279_5_alg».proof.Proof.Gen.KernelIdeal.Launch
import proofs.«148851_g27676769255847_cont_9to1_279_5_alg».proof.Proof.Gen.KernelIdeal.Points
import proofs.«148851_g27676769255847_cont_9to1_279_5_alg».proof.Proof.Gen.KernelIdeal.Frame
import proofs.«148851_g27676769255847_cont_9to1_279_5_alg».proof.Proof.Gen.ReferenceIdeal
import proofs.«148851_g27676769255847_cont_9to1_279_5_alg».proof.Proof.Gen.Pre_finite_inputs
import proofs.«148851_g27676769255847_cont_9to1_279_5_alg».proof.Proof.Gen.KernelIdeal.Value
import proofs.«148851_g27676769255847_cont_9to1_279_5_alg».proof.Proof.Gen.ReferenceIdeal.Run
import proofs.«148851_g27676769255847_cont_9to1_279_5_alg».proof.Proof.Gen.ReferenceIdeal.Read
import proofs.«148851_g27676769255847_cont_9to1_279_5_alg».proof.Proof.Spec
import proofs.«148851_g27676769255847_cont_9to1_279_5_alg».proof.Proof.RefValue
import proofs.«148851_g27676769255847_cont_9to1_279_5_alg».proof.Proof.KValue
import proofs.«148851_g27676769255847_cont_9to1_279_5_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the double sum of the argument arrays: the kernel's with the small
    matrices multiplied first, the reference's with the rows taken through one matrix after the other; with every
    entry real the two are one array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.GConv.Ref.ref_eq, (hagree c).1, (hagree c).2.1, (hagree c).2.2]
  obtain ⟨hx, hW, hA⟩ := Cert.GConv.Finite.real_of_pre _ _ _ (hpre c)
  exact (Cert.GConv.out_eq_outSeq _ _ _ hx hW hA).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
